-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v19_0)) (v2 : (c : Dev Cert.KernelIdeal.nD) → Buf (Elt Ideal) ((c.tc : Thread Cert.KernelIdeal.nD Cert.KernelIdeal.τ).loc Cert.KernelIdeal.main_v19_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v19_0) = v1 c
          ∧ r.2.mem ((c.tc : Thread Cert.KernelIdeal.nD Cert.KernelIdeal.τ).loc Cert.KernelIdeal.main_v19_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S1600000 : Shape := ⟨1, ![1600000]⟩
abbrev S100000x64 : Shape := ⟨2, ![100000, 64]⟩
abbrev S512x64 : Shape := ⟨2, ![512, 64]⟩
abbrev S64x512 : Shape := ⟨2, ![64, 512]⟩
abbrev S64 : Shape := ⟨1, ![64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S100000x64 : S_.BroadcastsInDim S100000x64 (![] : Fin 0 → Fin S100000x64.rank)
  reducesTo_S100000x64_S_d0_1 : S100000x64.ReducesTo [0, 1] S_
  bcast_S_S512x64 : S_.BroadcastsInDim S512x64 (![] : Fin 0 → Fin S512x64.rank)
  reducesTo_S512x64_S_d0_1 : S512x64.ReducesTo [0, 1] S_
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x512 .f32) (main_arg7 : FVec F S64 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S64x512 .f32 := Host.absf main_arg6
  let main_cst_6 : FVec F S_ .f32 := constant S_ .f32 0x7F800000#32
  let main_v20 : FVec F S64x512 .f32 := broadcastInDim S64x512 ![] bcast_S_S64x512 main_cst_6
  let main_v21 : IVec S64x512 1 := cmpf .olt main_v19 main_v20
  let main_c_7 : IVec S_ 1 := constantI S_ 1 1#1
  let main_v22 : IVec S_ 1 := (fun x v => Host.reduce IntOp.andi x v reducesTo_S64x512_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x512 .f32) (main_arg1 : IVec S1600000 32) (main_arg2 : IVec S1600000 32) (main_arg3 : FVec F S1600000 .f32) (main_arg4 : FVec F S100000x64 .f32) (main_arg5 : FVec F S512x64 .f32) (main_arg6 : FVec F S64x512 .f32) (main_arg7 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S100000x64 .f32 := Host.absf main_arg4
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S512x64 .f32 := Host.absf main_arg5
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg6 main_arg7 main_v13 main_v16
-- ==== Kernel.lean ====
abbrev S100000x512 : Shape := ⟨2, ![100000, 512]⟩
abbrev S1600000 : Shape := ⟨1, ![1600000]⟩
abbrev S100000x64 : Shape := ⟨2, ![100000, 64]⟩
abbrev S512x64 : Shape := ⟨2, ![512, 64]⟩
abbrev S64x512 : Shape := ⟨2, ![64, 512]⟩
abbrev S64 : Shape := ⟨1, ![64]⟩
abbrev S512x128 : Shape := ⟨2, ![512, 128]⟩
abbrev S100000x128 : Shape := ⟨2, ![100000, 128]⟩
abbrev S2000x512 : Shape := ⟨2, ![2000, 512]⟩
abbrev S2000x128 : Shape := ⟨2, ![2000, 128]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S2000x64 : Shape := ⟨2, ![2000, 64]⟩

abbrev nBuf : Space → Nat
  | .hbm => 32
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S100000x64, .f32⟩
  | .hbm, ⟨5, _⟩ => ⟨S512x64, .f32⟩
  | .hbm, ⟨6, _⟩ => ⟨S64x512, .f32⟩
  | .hbm, ⟨7, _⟩ => ⟨S64, .f32⟩
  | .hbm, ⟨8, _⟩ => ⟨S512x64, .f32⟩
  | .hbm, ⟨9, _⟩ => ⟨S512x128, .f32⟩
  | .hbm, ⟨10, _⟩ => ⟨S100000x128, .f32⟩
  | .hbm, ⟨11, _⟩ => ⟨S100000x64, .f32⟩
  | .hbm, ⟨12, _⟩ => ⟨S100000x64, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S1600000x1, .f32⟩
  | .hbm, ⟨23, _⟩ => ⟨S1600000x64, .f32⟩
  | .hbm, ⟨24, _⟩ => ⟨S1600000x64, .f32⟩
  | .hbm, ⟨25, _⟩ => ⟨S_, .f32⟩
  | .hbm, ⟨26, _⟩ => ⟨S100000x64, .f32⟩
  | .hbm, ⟨27, _⟩ => ⟨S1600000x1, .i32⟩
  | .hbm, ⟨28, _⟩ => ⟨S100000x64, .f32⟩
  | .hbm, ⟨29, _⟩ => ⟨S1x64, .f32⟩
  | .hbm, ⟨30, _⟩ => ⟨S100000x64, .f32⟩
  | .hbm, ⟨31, _⟩ => ⟨S100000x64, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S1x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  transposes_S64x512_S512x64_1_0 : S64x512.Transposes [1, 0] S512x64
  concatenates_S512x64_S512x64_S512x128_d1 : Shape.Concatenates [S512x64, S512x64] S512x128 1
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2000x128_S2000x128_0_0 : ∀ a, (![0, 0] : Fin 2 → Nat) a + S2000x128.size a ≤ S2000x128.size a
  h_S2000x128 : 0 < S2000x128.numel
  slices_S100000x128_S100000x64_0_0 : S100000x128.Slices ![0, 0] S100000x64
  slices_S100000x128_S100000x64_0_64 : S100000x128.Slices ![0, 64] S100000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  dot_S2000x512_S512x128_S2000x128_1_0_0_1_n_n_wf : DotDims.WF S2000x512 S512x128 S2000x128 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S100000x64.size a
  hwx1_4 : ∀ i : grid1.Coords, EltTy.bits .f32 = 32 ∨ (Rect.block (s := S100000x64) S2000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19_0) S2000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v19_1) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x512 : Shape := ⟨2, ![100000, 512]⟩
abbrev S1600000 : Shape := ⟨1, ![1600000]⟩
abbrev S100000x64 : Shape := ⟨2, ![100000, 64]⟩
abbrev S512x64 : Shape := ⟨2, ![512, 64]⟩
abbrev S64x512 : Shape := ⟨2, ![64, 512]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 37
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S100000x64, .f32⟩
  | .hbm, ⟨5, _⟩ => ⟨S512x64, .f32⟩
  | .hbm, ⟨6, _⟩ => ⟨S64x512, .f32⟩
  | .hbm, ⟨7, _⟩ => ⟨S64, .f32⟩
  | .hbm, ⟨8, _⟩ => ⟨S100000x64, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S1600000x1, .f32⟩
  | .hbm, ⟨19, _⟩ => ⟨S1600000x64, .f32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S512x64, .f32⟩
  | .hbm, ⟨26, _⟩ => ⟨S100000x64, .f32⟩
  | .hbm, ⟨27, _⟩ => ⟨S1x64, .f32⟩
  | .hbm, ⟨28, _⟩ => ⟨S100000x64, .f32⟩
  | .hbm, ⟨29, _⟩ => ⟨S100000x64, .f32⟩
  | .hbm, ⟨30, _⟩ => ⟨S100000x64, .f32⟩
  | .hbm, ⟨31, _⟩ => ⟨S_, .f32⟩
  | .hbm, ⟨32, _⟩ => ⟨S100000x64, .f32⟩
  | .hbm, ⟨33, _⟩ => ⟨S100000x64, .f32⟩
  | .hbm, ⟨34, _⟩ => ⟨S100000x64, .f32⟩
  | .hbm, ⟨35, _⟩ => ⟨S100000x64, .f32⟩
  | .hbm, ⟨36, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  transposes_S64x512_S512x64_1_0 : S64x512.Transposes [1, 0] S512x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x512_S512x64_S100000x64_1_0_0_1_n_n_wf : DotDims.WF S100000x512 S512x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Forms.lean ====
/-
  The four whole-array functions the two programs are compared through, each stated index by index over the
  literal shapes.

  * `edgeSum sup src dst w`: the sparse aggregation. Row `e` of the gathered messages is row `src e` of `sup`
    (a negative index first shifted by the number of nodes), scaled by the edge weight `w e`; the messages are then
    added into row `dst e` of a zero array. It is kept as ONE composite of the host's own gather, product and
    scatter-add, because both programs apply exactly this composite and nothing below needs to look inside it.
  * `denseProd x w`: the matrix product `(x · w) i j = Σ_k x i k · w k j` of a 100000 × 512 array with a 512 × 128 one.
  * `stdOf lin b`: the standard deviation `sqrt (exp (lin i j + b 0 j) + ε)`, with `ε` the binary32 value nearest 1e-4.
  * `latentOf q lin nz b`: the reparameterised sample `q i j + stdOf lin b i j · nz i j`.
-/
import proofs.«144433_j88038239633789_1_alg».proof.Proof.Gen.KernelIdeal
import Idealize.ShloMosaic.Lib.ValueIdx
import Idealize.ShloMosaic.PureOps.Ideal

noncomputable section

namespace Cert.KernelIdeal.Forms

open Cert.KernelIdeal Cert.KernelIdeal.Gen Idealize.ShloMosaic Idealize.ShloMosaic.TcCoe
open scoped BigOperators

variable {F : FTy → Type} [FloatOps F]

/-- Gather rows of `sup` at the (wrapped) source indices, scale each by its edge weight, and add the results into
    the rows named by the destination indices, starting from zero. -/
def edgeSum (sup : (⟨S100000x64, .f32⟩ : BufTy).Contents (Elt F)) (src dst : (⟨S1600000, .i32⟩ : BufTy).Contents (Elt F))
    (w : (⟨S1600000, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (mulf
      (Host.gather gather_S100000x64_S1600000x1_S1600000x64_1_0_n_n_0_1_164 sup
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x64 ![0, 1] bcast_S1600000x1_S1600000x64_0_1
        (broadcastInDim S1600000x1 ![0] bcast_S1600000_S1600000x1_0 w)))

/-- The matrix product of the node features with the 128 stacked weight columns, as a plain sum over the 512 input
    features. -/
def denseProd (x : S100000x512.Idx → EReal) (w : S512x128.Idx → EReal) : S100000x128.Idx → EReal :=
  fun i => ∑ k : Fin 512, x (ValueIdx.ix2 (i 0) k) * w (ValueIdx.ix2 k (i 1))

/-- The standard deviation: the square root of the exponential of the biased linear term, plus the variance floor. -/
def stdOf (lin : S100000x64.Idx → EReal) (b : S1x64.Idx → EReal) : S100000x64.Idx → EReal :=
  fun i => Ideal.sqrt (Ideal.exp (lin i + b (ValueIdx.ix2 (0 : Fin 1) (i 1))) + Ideal.ofBits .f32 0x38D1B717#32)

/-- The sample: the mean plus the standard deviation times the noise. -/
def latentOf (q lin nz : S100000x64.Idx → EReal) (b : S1x64.Idx → EReal) : S100000x64.Idx → EReal :=
  fun i => q i + stdOf lin b i * nz i

end Cert.KernelIdeal.Forms

end
-- ==== Proof.MatmulRegion.lean ====
/-
  Region 0, the dense product, as one whole-array function.

  The region walks 50 grid points. At point `t` it reads rows 2000·t … 2000·t + 1999 of the node features (all 512
  columns) and the whole 512 × 128 weight array, multiplies them on the matrix unit into a zero accumulator, and writes
  the 2000 × 128 result back as rows 2000·t … 2000·t + 1999 of the output. At the exact values a change of float format
  is the identity and a product accumulated into zero is the plain sum, so entry `(p, q)` of the block is
  `Σ_k xblock p k · w k q`; the block's row `p` is row `2000·t + p` of the features, hence the block is the
  restriction of `Forms.denseProd x w` to those rows. The 50 row blocks tile the output, so the output array after the
  region is `Forms.denseProd` of the two arrays the region found.
-/
import proofs.«144433_j88038239633789_1_alg».proof.Proof.Gen.KernelIdeal.Frame
import proofs.«144433_j88038239633789_1_alg».proof.Proof.Forms
import Idealize.ShloMosaic.Lib.Pipeline.Value
import Idealize.ShloMosaic.Lib.ValueIdx
import Idealize.ShloMosaic.PureOps.Ideal.Laws

set_option maxRecDepth 16384

noncomputable section

namespace Cert.KernelIdeal.Dense

open Cert.KernelIdeal Cert.KernelIdeal.Gen
open Idealize.ShloMosaic Idealize.ShloMosaic.TcCoe Idealize.SL.Sem
open Idealize.ShloMosaic.Pipeline (Dat Cfg Window)
open Idealize.ShloMosaic.ValueIdx
open scoped BigOperators

/-! ## The block product at an index -/

/-- The left operand's row coordinate is the output's row. -/
theorem lhs_row (i : S2000x128.Idx) (q : dot_S2000x512_S512x128_S2000x128_1_0_0_1_n_n.contr.Idx) :
    (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
/-- The left operand's column coordinate is the contracted index. -/
theorem lhs_col (i : S2000x128.Idx) (q : dot_S2000x512_S512x128_S2000x128_1_0_0_1_n_n.contr.Idx) :
    (dot_S2000x512_S512x128_S2000x128_1_0_0_1_n_n.lhsIdx i q 1).val = (q ⟨0, by decide⟩).val :=
  dot_S2000x512_S512x128_S2000x128_1_0_0_1_n_n.lhsIdx_val_of_single rfl i q
/-- The right operand's row coordinate is the contracted index. -/
theorem rhs_row (i : S2000x128.Idx) (q : dot_S2000x512_S512x128_S2000x128_1_0_0_1_n_n.contr.Idx) :
    (dot_S2000x512_S512x128_S2000x128_1_0_0_1_n_n.rhsIdx i q 0).val = (q ⟨0, by decide⟩).val :=
  dot_S2000x512_S512x128_S2000x128_1_0_0_1_n_n.rhsIdx_val_of_single rfl i q
/-- The right operand's column coordinate is the output's column. -/
theorem rhs_col (i : S2000x128.Idx) (q : dot_S2000x512_S512x128_S2000x128_1_0_0_1_n_n.contr.Idx) :
    (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- Entry `i` of the body's product of a 2000 × 512 block with the 512 × 128 weights is the sum over the 512 shared
    coordinates of the row's entry times the column's: the two narrowings are the identity at the exact values and the
    accumulator is zero. -/
theorem blockProd_apply (x0 : Vec Ideal S2000x512 .f32) (x1 : Vec Ideal S512x128 .f32) (i : S2000x128.Idx) :
    k0_pay1 (F := Ideal) x0 x1 i = ∑ k : Fin 512, x0 (ix2 (i 0) k) * x1 (ix2 k (i 1)) := by
  unfold k0_pay1
  simp only [matmul]
  rw [Ideal.matmul_constant_zero_apply, ← Equiv.sum_comp (contrEquiv1 dot_S2000x512_S512x128_S2000x128_1_0_0_1_n_n 512 rfl rfl).symm]
  refine Finset.sum_congr rfl fun k _ => ?_
  have hk := contrEquiv1_symm_val dot_S2000x512_S512x128_S2000x128_1_0_0_1_n_n 512 rfl rfl k
  have el : dot_S2000x512_S512x128_S2000x128_1_0_0_1_n_n.lhsIdx i ((contrEquiv1 dot_S2000x512_S512x128_S2000x128_1_0_0_1_n_n 512 rfl rfl).symm k) = ix2 (i 0) k := funext fun a => Fin.ext (by
    match a with
    | ⟨0, _⟩ => exact lhs_row _ _
    | ⟨1, _⟩ => exact (lhs_col _ _).trans hk)
  have er : dot_S2000x512_S512x128_S2000x128_1_0_0_1_n_n.rhsIdx i ((contrEquiv1 dot_S2000x512_S512x128_S2000x128_1_0_0_1_n_n 512 rfl rfl).symm k) = ix2 k (i 1) := funext fun a => Fin.ext (by
    match a with
    | ⟨0, _⟩ => exact (rhs_row _ _).trans hk
    | ⟨1, _⟩ => exact rhs_col _ _)
  rw [el, er, shapeCast_self]
  rfl

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the 50 grid points: the feature window's row block is the output's, every column
    block is block 0, and the weight window stays at its one block. -/
theorem index_maps : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the 50 row blocks of the output is some point's. -/
theorem rowBlock_onto : ∀ q : Fin 50, ∃ t : Fin cfg0.N, win0_2.index t = ![q.val, 0] :=
  (by decide +kernel : ∀ q : Fin 50, ∃ t : Fin grid0.N, win0_2.index t = ![q.val, 0])

/-- What point `t` writes back is block `t` of the dense product of the two arrays the region found. -/
theorem dense_flushed (c : Dev nD) (t : Fin cfg0.N) :
    (dat0 (F := Ideal) V c).flushed 2 t
      = ((cfg0.win 2).blk t).view.read (Elt Ideal) (Forms.denseProd (V c main_arg0) (V c main_v1)) := by
  show (cfg0.win 2).cut (grid0.coords t) ((dat0 V c).after 2 t) = _
  rw [after0_2]
  unfold out0_2
  rw [View.canon_unit_zero zero_offsets]
  simp only [View.ld_unit_zero (S := S2000x512) zero_offsets, View.ld_unit_zero (S := S512x128) zero_offsets]
  obtain ⟨e0, e1, e2, e3, e4⟩ := index_maps t
  funext j
  show k0_pay1 (F := Ideal) (iblk0 V c 0 t) (iblk0 V c 1 t) j
    = Forms.denseProd (V c main_arg0) (V c main_v1) (((cfg0.win 2).blk t).view.emb j)
  refine (blockProd_apply (iblk0 V c 0 t) (iblk0 V c 1 t) j).trans ?_
  unfold Forms.denseProd
  refine Finset.sum_congr rfl fun k _ => ?_
  have hx : iblk0 V c 0 t (ix2 (j 0) k) = V c main_arg0 (ix2 ((((cfg0.win 2).blk t).view.emb j) 0) k) := by
    show V c main_arg0 (((cfg0.win 0).blk t).view.emb (ix2 (j 0) k)) = _
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  have hw : iblk0 V c 1 t (ix2 k (j 1)) = V c main_v1 (ix2 k ((((cfg0.win 2).blk t).view.emb j) 1)) := by
    show V c main_v1 (((cfg0.win 1).blk t).view.emb (ix2 k (j 1))) = _
    refine congrArg (V c main_v1) (funext fun a => Fin.ext ?_)
    match a with
    | ⟨0, _⟩ => show win0_1.index t (0 : Fin 2) * 512 + 1 * k.val = k.val; omega
    | ⟨1, _⟩ => show win0_1.index t (1 : Fin 2) * 128 + 1 * (j 1).val = win0_2.index t (1 : Fin 2) * 128 + 1 * (j 1).val; omega
  rw [hx, hw]

/-- An index of the output is in point `t`'s block iff each coordinate is in the block's range on its axis. -/
theorem mem_block (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v2).slice (win0_2.rect t)).set ↔ _
  rw [View.set_slice_whole, Rect.mem_set_unit]
  exact Iff.rfl

/-- The row blocks tile the output: row `r` is in the block of the point whose row block is `r / 2000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := rowBlock_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The output array after the region is the dense product of the feature array and the weight array as the region
    found them. -/
theorem dense_final (c : Dev nD) :
    (dat0 (F := Ideal) V c).arrAt 2 cfg0.N = Forms.denseProd (V c main_arg0) (V c main_v1) :=
  (dat0 V c).arrAt_eq_of_cover 2 (Forms.denseProd (V c main_arg0) (V c main_v1)) (fun t _ => dense_flushed V c t) covered

end Cert.KernelIdeal.Dense

end
-- ==== Proof.SampleRegion.lean ====
/-
  The elementwise region as whole-array functions. The region reads four arrays — the mean `q`, the linear term
  `lin`, the noise `nz` (each 100000 × 64) and the bias `b` (one row of 64) — and writes two: the standard deviation
  `std i j = sqrt (exp (lin i j + b 0 j) + ε)` and the sample `q i j + std i j · nz i j`.

  The grid has 50 points. At point `t` every 100000 × 64 array is seen through rows `2000·t … 2000·t + 1999`, all 64
  columns; the bias row is seen whole at every point. Entry `(r, k)` of a block therefore depends on entry
  `(2000·t + r, k)` of the three big inputs and on entry `(0, k)` of the bias only, and it is written to entry
  `(2000·t + r, k)` of the outputs. The 50 row blocks are disjoint and cover all 100000 rows (row `r` lies in block
  `r / 2000`), so each output array ends as `Forms.stdOf`, resp. `Forms.latentOf`, of the arrays the region finds.
-/
import proofs.«144433_j88038239633789_1_alg».proof.Proof.Gen.KernelIdeal.Frame
import proofs.«144433_j88038239633789_1_alg».proof.Proof.Forms
import Idealize.ShloMosaic.Lib.Pipeline.Value
import Idealize.ShloMosaic.Lib.ValueIdx
import Idealize.ShloMosaic.Lib.ValueLayout

noncomputable section

namespace Cert.KernelIdeal.Sample

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Which block each window shows at a grid point -/

/-- The two zero offsets of a whole-block access, as the constant function. -/
theorem zeroOffsets : (![0, 0] : Fin 2 → Nat) = fun _ => 0 := funext fun a => by fin_cases a <;> rfl

/-- At point `t` the five row-blocked windows (mean, linear term, noise, and the two outputs) show block `t` along
    the rows and block `0` along the columns; the bias window shows block `(0, 0)` at every point. -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-! ## The input blocks as entries of the arrays -/

/-- Entry `(r, k)` of the mean's block at point `t` is entry `(2000·t + r, k)` of the mean. -/
theorem meanBlock_apply (c : Dev nD) (t : Fin cfg1.N) (j : S2000x64.Idx) (i : S100000x64.Idx)
    (h0 : (i 0).val = 2000 * t.val + (j 0).val) (h1 : (i 1).val = (j 1).val) :
    (iblk1 V c 0 t : Vec Ideal S2000x64 .f32) j = (V c main_v17 : S100000x64.Idx → EReal) i := by
  obtain ⟨e0, e1, -⟩ := blockIndex t
  show V c main_v17 (((cfg1.win 0).blk t).view.emb j) = V c main_v17 i
  refine congrArg (V c main_v17) (funext fun a => Fin.ext ?_)
  match a with
  | ⟨0, _⟩ => show win1_0.index t (0 : Fin 2) * 2000 + 1 * (j 0).val = (i 0).val; omega
  | ⟨1, _⟩ => show win1_0.index t (1 : Fin 2) * 64 + 1 * (j 1).val = (i 1).val; omega

/-- Entry `(r, k)` of the linear term's block at point `t` is entry `(2000·t + r, k)` of the linear term. -/
theorem linBlock_apply (c : Dev nD) (t : Fin cfg1.N) (j : S2000x64.Idx) (i : S100000x64.Idx)
    (h0 : (i 0).val = 2000 * t.val + (j 0).val) (h1 : (i 1).val = (j 1).val) :
    (iblk1 V c 1 t : Vec Ideal S2000x64 .f32) j = (V c main_v4 : S100000x64.Idx → EReal) i := by
  obtain ⟨-, -, e0, e1, -⟩ := blockIndex t
  show V c main_v4 (((cfg1.win 1).blk t).view.emb j) = V c main_v4 i
  refine congrArg (V c main_v4) (funext fun a => Fin.ext ?_)
  match a with
  | ⟨0, _⟩ => show win1_1.index t (0 : Fin 2) * 2000 + 1 * (j 0).val = (i 0).val; omega
  | ⟨1, _⟩ => show win1_1.index t (1 : Fin 2) * 64 + 1 * (j 1).val = (i 1).val; omega

/-- Entry `(r, k)` of the noise's block at point `t` is entry `(2000·t + r, k)` of the noise. -/
theorem noiseBlock_apply (c : Dev nD) (t : Fin cfg1.N) (j : S2000x64.Idx) (i : S100000x64.Idx)
    (h0 : (i 0).val = 2000 * t.val + (j 0).val) (h1 : (i 1).val = (j 1).val) :
    (iblk1 V c 2 t : Vec Ideal S2000x64 .f32) j = (V c main_arg4 : S100000x64.Idx → EReal) i := by
  obtain ⟨-, -, -, -, e0, e1, -⟩ := blockIndex t
  show V c main_arg4 (((cfg1.win 2).blk t).view.emb j) = V c main_arg4 i
  refine congrArg (V c main_arg4) (funext fun a => Fin.ext ?_)
  match a with
  | ⟨0, _⟩ => show win1_2.index t (0 : Fin 2) * 2000 + 1 * (j 0).val = (i 0).val; omega
  | ⟨1, _⟩ => show win1_2.index t (1 : Fin 2) * 64 + 1 * (j 1).val = (i 1).val; omega

/-- The bias window's block is the whole bias row at every point: its entry `(0, k)` is entry `(0, k)` of the bias. -/
theorem biasBlock_apply (c : Dev nD) (t : Fin cfg1.N) (k k' : Fin 64) (h : k'.val = k.val) :
    (iblk1 V c 3 t : Vec Ideal S1x64 .f32) (ix2 (0 : Fin 1) k) = (V c main_v18 : S1x64.Idx → EReal) (ix2 (0 : Fin 1) k') := by
  obtain ⟨-, -, -, -, -, -, e0, e1, -⟩ := blockIndex t
  show V c main_v18 (((cfg1.win 3).blk t).view.emb (ix2 (0 : Fin 1) k)) = V c main_v18 (ix2 (0 : Fin 1) k')
  refine congrArg (V c main_v18) (funext fun a => Fin.ext ?_)
  match a with
  | ⟨0, _⟩ => show win1_3.index t (0 : Fin 2) * 1 + 1 * 0 = 0; omega
  | ⟨1, _⟩ => show win1_3.index t (1 : Fin 2) * 64 + 1 * k.val = k'.val; omega

/-! ## What the body computes at one entry -/

/-- The standard deviation's block at entry `(r, k)`: it depends on entry `(r, k)` of the linear term's block and on
    entry `(0, k)` of the bias row. The two casts to the same shape are identities, the bias row is repeated down the
    rows, and the remaining operations act entry by entry. -/
theorem stdPayload (x : Vec Ideal S2000x64 .f32) (b : Vec Ideal S1x64 .f32) (p : Fin 2000) (k : Fin 64) :
    k1_pay1 x b (ix2 p k)
      = Ideal.sqrt (Ideal.exp (x (ix2 p k) + b (ix2 (0 : Fin 1) k)) + Ideal.ofBits .f32 0x38D1B717#32) := by
  unfold k1_pay1
  simp only [shapeCast_self]
  show Ideal.sqrt (Ideal.exp (x (ix2 p k) + broadcastTo S2000x64 b broadcasts_S1x64_S2000x64 (ix2 p k)) + _) = _
  rw [broadcastTo_1b_ab_apply]
  rfl

/-- So, when the linear term's block at `j` is the array `lin` at `i` and the bias row agrees with `b` on the column
    of `i`, the standard deviation's block at `j` is `Forms.stdOf lin b` at `i`. -/
theorem std_point (x1 : Vec Ideal S2000x64 .f32) (x3 : Vec Ideal S1x64 .f32) (lin : S100000x64.Idx → EReal) (b : S1x64.Idx → EReal)
    (j : S2000x64.Idx) (i : S100000x64.Idx)
    (h1 : x1 j = lin i) (h3 : x3 (ix2 (0 : Fin 1) (j 1)) = b (ix2 (0 : Fin 1) (i 1))) :
    k1_pay1 x1 x3 j = Forms.stdOf lin b i := by
  obtain ⟨p, k, rfl⟩ : ∃ (p : Fin 2000) (k : Fin 64), j = ix2 p k := ⟨j 0, j 1, eq_ix2 j⟩
  rw [stdPayload]
  unfold Forms.stdOf
  rw [h1]
  have h3' : x3 (ix2 (0 : Fin 1) k) = b (ix2 (0 : Fin 1) (i 1)) := h3
  rw [h3']

/-- The sample's block at entry `j` is the mean's block there plus the standard deviation's block there times the
    noise's block there; under the same agreements it is `Forms.latentOf q lin nz b` at `i`. -/
theorem latent_point (x0 x1 x2 : Vec Ideal S2000x64 .f32) (x3 : Vec Ideal S1x64 .f32)
    (q lin nz : S100000x64.Idx → EReal) (b : S1x64.Idx → EReal) (j : S2000x64.Idx) (i : S100000x64.Idx)
    (h0 : x0 j = q i) (h1 : x1 j = lin i) (h2 : x2 j = nz i)
    (h3 : x3 (ix2 (0 : Fin 1) (j 1)) = b (ix2 (0 : Fin 1) (i 1))) :
    k1_pay2 x1 x3 x0 x2 j = Forms.latentOf q lin nz b i := by
  unfold k1_pay2
  simp only [shapeCast_self]
  show x0 j + k1_pay1 x1 x3 j * x2 j = _
  rw [std_point x1 x3 lin b j i h1 h3, h0, h2]
  rfl

/-! ## The standard deviation (output window 4) -/

/-- Entry `(r, k)` of the standard deviation's block at point `t` is written to entry `(2000·t + r, k)` of the array. -/
theorem stdBlock_coords (t : Fin cfg1.N) (j : S2000x64.Idx) :
    ((((cfg1.win 4).blk t).view.emb j) 0).val = 2000 * t.val + (j 0).val
      ∧ ((((cfg1.win 4).blk t).view.emb j) 1).val = (j 1).val := by
  obtain ⟨-, -, -, -, -, -, -, -, e0, e1, -⟩ := blockIndex t
  show win1_4.index t (0 : Fin 2) * 2000 + 1 * (j 0).val = _ ∧ win1_4.index t (1 : Fin 2) * 64 + 1 * (j 1).val = _
  omega

/-- What point `t` writes back to the standard deviation's array is block `t` of `Forms.stdOf` of the linear term
    and the bias as the region finds them. -/
theorem std_flushed (c : Dev nD) (t : Fin cfg1.N) :
    (dat1 V c).flushed 4 t
      = ((cfg1.win 4).blk t).view.read (Elt Ideal) (Forms.stdOf (V c main_v4) (V c main_v18)) := by
  show (cfg1.win 4).cut (grid1.coords t) ((dat1 V c).after 4 t) = _
  rw [after1_4]
  unfold out1_4
  rw [View.canon_unit_zero zeroOffsets]
  simp only [View.ld_unit_zero (S := S2000x64) zeroOffsets, View.ld_unit_zero (S := S1x64) zeroOffsets]
  funext j
  show k1_pay1 (iblk1 V c 1 t) (iblk1 V c 3 t) j
    = Forms.stdOf (V c main_v4) (V c main_v18) (((cfg1.win 4).blk t).view.emb j)
  obtain ⟨r0, r1⟩ := stdBlock_coords t j
  exact std_point _ _ _ _ j _ (linBlock_apply V c t j _ r0 r1) (biasBlock_apply V c t (j 1) _ r1)

/-- An entry of the array is in point `t`'s block iff each coordinate is in the block's range on its axis. -/
theorem std_mem_blk (t : Fin cfg1.N) (i : S100000x64.Idx) :
    i ∈ ((cfg1.win 4).blk t).view.set
      ↔ ∀ a : Fin 2, win1_4.index t a * S2000x64.size a ≤ (i a).val
          ∧ (i a).val < win1_4.index t a * S2000x64.size a + S2000x64.size a := by
  show i ∈ ((View.whole main_v19_0).slice (win1_4.rect t)).set ↔ _
  rw [View.set_slice_whole, Rect.mem_set_unit]
  exact Iff.rfl

/-- Every entry is written: row `r` lies in the block of point `r / 2000`. -/
theorem std_cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have ht : (i 0).val / 2000 < cfg1.N := by rw [show cfg1.N = 50 from N_1]; omega
  obtain ⟨-, -, -, -, -, -, -, -, e0, e1, -⟩ := blockIndex ⟨(i 0).val / 2000, ht⟩
  have e0' : win1_4.index ⟨(i 0).val / 2000, ht⟩ (0 : Fin 2) = (i 0).val / 2000 := e0
  refine ⟨⟨(i 0).val / 2000, ht⟩, flush1_4 _, ?_⟩
  rw [std_mem_blk]
  intro a
  match a with
  | ⟨0, _⟩ =>
    show win1_4.index ⟨(i 0).val / 2000, ht⟩ (0 : Fin 2) * 2000 ≤ (i 0).val
      ∧ (i 0).val < win1_4.index ⟨(i 0).val / 2000, ht⟩ (0 : Fin 2) * 2000 + 2000
    omega
  | ⟨1, _⟩ =>
    show win1_4.index ⟨(i 0).val / 2000, ht⟩ (1 : Fin 2) * 64 ≤ (i 1).val
      ∧ (i 1).val < win1_4.index ⟨(i 0).val / 2000, ht⟩ (1 : Fin 2) * 64 + 64
    omega

/-- After the region the standard deviation's array is `Forms.stdOf` of the linear term and the bias. -/
theorem std_final (c : Dev nD) :
    (dat1 (F := Ideal) V c).arrAt 4 cfg1.N = Forms.stdOf (V c main_v4) (V c main_v18) :=
  (dat1 V c).arrAt_eq_of_cover 4 (Forms.stdOf (V c main_v4) (V c main_v18))
    (fun t _ => std_flushed V c t) std_cover

/-! ## The sample (output window 5) -/

/-- Entry `(r, k)` of the sample's block at point `t` is written to entry `(2000·t + r, k)` of the array. -/
theorem latentBlock_coords (t : Fin cfg1.N) (j : S2000x64.Idx) :
    ((((cfg1.win 5).blk t).view.emb j) 0).val = 2000 * t.val + (j 0).val
      ∧ ((((cfg1.win 5).blk t).view.emb j) 1).val = (j 1).val := by
  obtain ⟨-, -, -, -, -, -, -, -, -, -, e0, e1⟩ := blockIndex t
  show win1_5.index t (0 : Fin 2) * 2000 + 1 * (j 0).val = _ ∧ win1_5.index t (1 : Fin 2) * 64 + 1 * (j 1).val = _
  omega

/-- What point `t` writes back to the sample's array is block `t` of `Forms.latentOf` of the mean, the linear term,
    the noise and the bias as the region finds them. -/
theorem latent_flushed (c : Dev nD) (t : Fin cfg1.N) :
    (dat1 V c).flushed 5 t
      = ((cfg1.win 5).blk t).view.read (Elt Ideal)
          (Forms.latentOf (V c main_v17) (V c main_v4) (V c main_arg4) (V c main_v18)) := by
  show (cfg1.win 5).cut (grid1.coords t) ((dat1 V c).after 5 t) = _
  rw [after1_5]
  unfold out1_5
  rw [View.canon_unit_zero zeroOffsets]
  simp only [View.ld_unit_zero (S := S2000x64) zeroOffsets, View.ld_unit_zero (S := S1x64) zeroOffsets]
  funext j
  show k1_pay2 (iblk1 V c 1 t) (iblk1 V c 3 t) (iblk1 V c 0 t) (iblk1 V c 2 t) j
    = Forms.latentOf (V c main_v17) (V c main_v4) (V c main_arg4) (V c main_v18) (((cfg1.win 5).blk t).view.emb j)
  obtain ⟨r0, r1⟩ := latentBlock_coords t j
  exact latent_point _ _ _ _ _ _ _ _ j _ (meanBlock_apply V c t j _ r0 r1) (linBlock_apply V c t j _ r0 r1)
    (noiseBlock_apply V c t j _ r0 r1) (biasBlock_apply V c t (j 1) _ r1)

/-- An entry of the array is in point `t`'s block iff each coordinate is in the block's range on its axis. -/
theorem latent_mem_blk (t : Fin cfg1.N) (i : S100000x64.Idx) :
    i ∈ ((cfg1.win 5).blk t).view.set
      ↔ ∀ a : Fin 2, win1_5.index t a * S2000x64.size a ≤ (i a).val
          ∧ (i a).val < win1_5.index t a * S2000x64.size a + S2000x64.size a := by
  show i ∈ ((View.whole main_v19_1).slice (win1_5.rect t)).set ↔ _
  rw [View.set_slice_whole, Rect.mem_set_unit]
  exact Iff.rfl

/-- Every entry is written: row `r` lies in the block of point `r / 2000`. -/
theorem latent_cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have ht : (i 0).val / 2000 < cfg1.N := by rw [show cfg1.N = 50 from N_1]; omega
  obtain ⟨-, -, -, -, -, -, -, -, -, -, e0, e1⟩ := blockIndex ⟨(i 0).val / 2000, ht⟩
  have e0' : win1_5.index ⟨(i 0).val / 2000, ht⟩ (0 : Fin 2) = (i 0).val / 2000 := e0
  refine ⟨⟨(i 0).val / 2000, ht⟩, flush1_5 _, ?_⟩
  rw [latent_mem_blk]
  intro a
  match a with
  | ⟨0, _⟩ =>
    show win1_5.index ⟨(i 0).val / 2000, ht⟩ (0 : Fin 2) * 2000 ≤ (i 0).val
      ∧ (i 0).val < win1_5.index ⟨(i 0).val / 2000, ht⟩ (0 : Fin 2) * 2000 + 2000
    omega
  | ⟨1, _⟩ =>
    show win1_5.index ⟨(i 0).val / 2000, ht⟩ (1 : Fin 2) * 64 ≤ (i 1).val
      ∧ (i 1).val < win1_5.index ⟨(i 0).val / 2000, ht⟩ (1 : Fin 2) * 64 + 64
    omega

/-- After the region the sample's array is `Forms.latentOf` of the mean, the linear term, the noise and the bias. -/
theorem latent_final (c : Dev nD) :
    (dat1 (F := Ideal) V c).arrAt 5 cfg1.N
      = Forms.latentOf (V c main_v17) (V c main_v4) (V c main_arg4) (V c main_v18) :=
  (dat1 V c).arrAt_eq_of_cover 5 (Forms.latentOf (V c main_v17) (V c main_v4) (V c main_arg4) (V c main_v18))
    (fun t _ => latent_flushed V c t) latent_cover

end Cert.KernelIdeal.Sample

end
-- ==== Proof.HostStretch.lean ====
/-
  The two stretches of whole-array operations that run between the kernel regions, read back as terms.

  Before the first region: the node features are untouched, and the stacked weight matrix is the first weight
  matrix (512 × 64) placed beside the transpose of the second (64 × 512), giving 512 × 128.

  Between the regions, with `Y` the 100000 × 128 product the first region leaves:
  * the mean is the sparse aggregation `Forms.edgeSum` of the left half of `Y` (columns 0 … 63) along the edges,
    with the edges' source indices, destination indices and weights as launched;
  * the linear term is the right half of `Y` (columns 64 … 127);
  * the bias is the length-64 bias vector regarded as a 1 × 64 array;
  * the noise is untouched.

  Every value here depends on the launch memory only through the named argument arrays, and on the first region
  only through `Y`: no stretch writes an argument, and the first region writes nothing but `Y`.
-/
import proofs.«144433_j88038239633789_1_alg».proof.Proof.Gen.KernelIdeal.Frame
import proofs.«144433_j88038239633789_1_alg».proof.Proof.Forms
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Before the first region -/

/-- The node features (100000 × 512) are an argument the first stretch does not write: the first region reads them
    as launched. -/
theorem W1_features (c : Dev nD) : W1 m ρ c (Proc.devRef .tc main_arg0) = m ((c : Thread nD τ).loc main_arg0) := by
  show StableHlo.after hostOps0 (W0 m ρ c) (Proc.devRef .tc main_arg0) = _
  after_results

/-- The stacked weights (512 × 128): columns 0 … 63 are the first weight matrix, columns 64 … 127 the transpose of
    the second. -/
theorem W1_weights (c : Dev nD) : W1 m ρ c (Proc.devRef .tc main_v1)
    = concatenate S512x128 1 [⟨S512x64, m ((c : Thread nD τ).loc main_arg5)⟩,
        ⟨S512x64, transpose S512x64 [1, 0] (m ((c : Thread nD τ).loc main_arg6)) transposes_S64x512_S512x64_1_0⟩]
        concatenates_S512x64_S512x64_S512x128_d1 := by
  show StableHlo.after hostOps0 (W0 m ρ c) (Proc.devRef .tc main_v1) = _
  after_results

/-! ## The arguments the second stretch reads, as the first region leaves them

The first region owns three arrays: the features, the stacked weights and its product. Every other array leaves the
region as it entered it, and the first stretch writes no argument; so each of these five holds its launch contents. -/

/-- The source indices, when the first region is entered. -/
theorem W1_arg1 (c : Dev nD) : W1 m ρ c (Proc.devRef .tc main_arg1) = m ((c : Thread nD τ).loc main_arg1) := by
  show StableHlo.after hostOps0 (W0 m ρ c) (Proc.devRef .tc main_arg1) = _
  after_results
/-- The destination indices, when the first region is entered. -/
theorem W1_arg2 (c : Dev nD) : W1 m ρ c (Proc.devRef .tc main_arg2) = m ((c : Thread nD τ).loc main_arg2) := by
  show StableHlo.after hostOps0 (W0 m ρ c) (Proc.devRef .tc main_arg2) = _
  after_results
/-- The edge weights, when the first region is entered. -/
theorem W1_arg3 (c : Dev nD) : W1 m ρ c (Proc.devRef .tc main_arg3) = m ((c : Thread nD τ).loc main_arg3) := by
  show StableHlo.after hostOps0 (W0 m ρ c) (Proc.devRef .tc main_arg3) = _
  after_results
/-- The noise, when the first region is entered. -/
theorem W1_arg4 (c : Dev nD) : W1 m ρ c (Proc.devRef .tc main_arg4) = m ((c : Thread nD τ).loc main_arg4) := by
  show StableHlo.after hostOps0 (W0 m ρ c) (Proc.devRef .tc main_arg4) = _
  after_results
/-- The bias vector, when the first region is entered. -/
theorem W1_arg7 (c : Dev nD) : W1 m ρ c (Proc.devRef .tc main_arg7) = m ((c : Thread nD τ).loc main_arg7) := by
  show StableHlo.after hostOps0 (W0 m ρ c) (Proc.devRef .tc main_arg7) = _
  after_results

/-- The edges' source indices (1600000 integers), at the first region's exit. -/
theorem W2_src (c : Dev nD) : W2 m ρ c (Proc.devRef .tc main_arg1) = m ((c : Thread nD τ).loc main_arg1) :=
  (W2_of_ne m ρ c main_arg1 (by decide)).trans (W1_arg1 m ρ c)
/-- The edges' destination indices (1600000 integers), at the first region's exit. -/
theorem W2_dst (c : Dev nD) : W2 m ρ c (Proc.devRef .tc main_arg2) = m ((c : Thread nD τ).loc main_arg2) :=
  (W2_of_ne m ρ c main_arg2 (by decide)).trans (W1_arg2 m ρ c)
/-- The edges' weights (1600000 values), at the first region's exit. -/
theorem W2_weight (c : Dev nD) : W2 m ρ c (Proc.devRef .tc main_arg3) = m ((c : Thread nD τ).loc main_arg3) :=
  (W2_of_ne m ρ c main_arg3 (by decide)).trans (W1_arg3 m ρ c)
/-- The noise (100000 × 64), at the first region's exit. -/
theorem W2_noise (c : Dev nD) : W2 m ρ c (Proc.devRef .tc main_arg4) = m ((c : Thread nD τ).loc main_arg4) :=
  (W2_of_ne m ρ c main_arg4 (by decide)).trans (W1_arg4 m ρ c)
/-- The bias vector (64 values), at the first region's exit. -/
theorem W2_bias_arg (c : Dev nD) : W2 m ρ c (Proc.devRef .tc main_arg7) = m ((c : Thread nD τ).loc main_arg7) :=
  (W2_of_ne m ρ c main_arg7 (by decide)).trans (W1_arg7 m ρ c)

/-! ## Between the regions -/

/-- The mean: the left half of the first region's product, gathered at the (wrapped) source indices, scaled by the
    edge weights and added into the rows the destination indices name, from zero. It depends on the product only
    through columns 0 … 63. -/
theorem W3_mean (c : Dev nD) : W3 m ρ c (Proc.devRef .tc main_v17)
    = Forms.edgeSum (extractStridedSlice S100000x64 ![0, 0] (W2 m ρ c (Proc.devRef .tc main_v2)) slices_S100000x128_S100000x64_0_0)
        (m ((c : Thread nD τ).loc main_arg1)) (m ((c : Thread nD τ).loc main_arg2)) (m ((c : Thread nD τ).loc main_arg3)) := by
  show StableHlo.after hostOps1 (W2 m ρ c) (Proc.devRef .tc main_v17) = _
  after_results
  rw [W2_src m ρ c, W2_dst m ρ c, W2_weight m ρ c]
  rfl

/-- The linear term: the right half of the first region's product, entry `(i, j)` being the product's `(i, 64 + j)`. -/
theorem W3_lin (c : Dev nD) : W3 m ρ c (Proc.devRef .tc main_v4)
    = extractStridedSlice S100000x64 ![0, 64] (W2 m ρ c (Proc.devRef .tc main_v2)) slices_S100000x128_S100000x64_0_64 := by
  show StableHlo.after hostOps1 (W2 m ρ c) (Proc.devRef .tc main_v4) = _
  after_results

/-- The bias as a 1 × 64 array: entry `(0, j)` is the bias vector's entry `j`. -/
theorem W3_bias (c : Dev nD) : W3 m ρ c (Proc.devRef .tc main_v18)
    = shapeCast S1x64 (m ((c : Thread nD τ).loc main_arg7)) shapeCasts_S64_S1x64 := by
  show StableHlo.after hostOps1 (W2 m ρ c) (Proc.devRef .tc main_v18) = _
  after_results
  rw [W2_bias_arg m ρ c]
  rfl

/-- The noise reaches the second region as launched: neither stretch nor the first region writes it. -/
theorem W3_noise (c : Dev nD) : W3 m ρ c (Proc.devRef .tc main_arg4) = m ((c : Thread nD τ).loc main_arg4) := by
  show StableHlo.after hostOps1 (W2 m ρ c) (Proc.devRef .tc main_arg4) = _
  after_results
  exact W2_noise m ρ c

end Cert.KernelIdeal.Stretch

end
-- ==== Proof.Bridge.lean ====
/-
  The two programs compute the same three arrays.

  The kernel multiplies the node features once by the 128 stacked columns `[W | Vᵀ]` and takes the two halves of the
  result; the reference multiplies by `W` and by `Vᵀ` separately. Column `j < 64` of the stacked array is column
  `j` of `W` and column `64 + j` is column `j` of `Vᵀ`, so entry `(i, j)` of either half is the same sum
  `Σ_k x i k · W k j` (resp. `Σ_k x i k · Vᵀ k j`) over the 512 input features that the reference's product is: the
  sums agree term by term, and no law of the extended reals beyond that is used. Everything after the products is the
  same composite on both sides: the sparse aggregation `Forms.edgeSum`, then `sqrt (exp (lin + bias) + ε)` and
  `mean + std · noise` entry by entry, with the bias row `b` read as `b j` through the kernel's 1 × 64 cast and
  through the reference's two broadcasts alike.
-/
import proofs.«144433_j88038239633789_1_alg».proof.Proof.Forms
import proofs.«144433_j88038239633789_1_alg».proof.Proof.Gen.ReferenceIdeal.Read
import Idealize.ShloMosaic.Lib.Pipeline.Value
import Idealize.ShloMosaic.Lib.ValueIdx

set_option maxRecDepth 16384

noncomputable section

namespace Cert.Bridge

open Idealize.ShloMosaic Idealize.ShloMosaic.TcCoe Idealize.ShloMosaic.ValueIdx
open scoped BigOperators

/-! ## The kernel's side: the stacked weights and the two halves of the dense product -/

section KernelSide
open Cert.KernelIdeal Cert.KernelIdeal.Gen

/-- The 512 × 128 array whose first 64 columns are `W` and whose last 64 are `T`. -/
def stacked (W T : FVec Ideal S512x64 .f32) : FVec Ideal S512x128 .f32 :=
  concatenate S512x128 1 [⟨S512x64, W⟩, ⟨S512x64, T⟩] concatenates_S512x64_S512x64_S512x128_d1

/-- The transposed variance weights as the kernel's host code forms them. -/
def transposed (Vw : FVec Ideal S64x512 .f32) : FVec Ideal S512x64 .f32 :=
  transpose S512x64 [1, 0] Vw transposes_S64x512_S512x64_1_0

/-- The bias as a 1 × 64 row. -/
def biasRow (b : FVec Ideal S64 .f32) : FVec Ideal S1x64 .f32 :=
  shapeCast S1x64 b shapeCasts_S64_S1x64

/-- The first 64 columns of the dense product. -/
def leftHalf (Y : FVec Ideal S100000x128 .f32) : FVec Ideal S100000x64 .f32 :=
  extractStridedSlice S100000x64 ![0, 0] Y slices_S100000x128_S100000x64_0_0

/-- The last 64 columns of the dense product. -/
def rightHalf (Y : FVec Ideal S100000x128 .f32) : FVec Ideal S100000x64 .f32 :=
  extractStridedSlice S100000x64 ![0, 64] Y slices_S100000x128_S100000x64_0_64

theorem stacked_left (W T : FVec Ideal S512x64 .f32) (k : Fin 512) (j : Fin 64) (h : j.val < 128) :
    stacked W T (ix2 k (⟨j.val, h⟩ : Fin 128)) = W (ix2 k j) :=
  concatenate_pair_apply_left (1 : Fin S512x128.rank) W T concatenates_S512x64_S512x64_S512x128_d1
    (ix2 k (⟨j.val, h⟩ : Fin 128)) rfl (ix2 k j) (fun b => match b with
      | ⟨0, _⟩ => rfl
      | ⟨1, _⟩ => rfl)

theorem stacked_right (W T : FVec Ideal S512x64 .f32) (k : Fin 512) (j : Fin 64) (h : 64 + j.val < 128) :
    stacked W T (ix2 k (⟨64 + j.val, h⟩ : Fin 128)) = T (ix2 k j) :=
  concatenate_pair_apply_right (1 : Fin S512x128.rank) W T concatenates_S512x64_S512x64_S512x128_d1
    (ix2 k (⟨64 + j.val, h⟩ : Fin 128)) rfl rfl (ix2 k j) (fun b hb => match b, hb with
      | ⟨0, _⟩, _ => rfl
      | ⟨1, _⟩, hb => absurd rfl hb)
    (by show j.val + 64 = 64 + j.val; omega)

/-- Entry `(i, j)` of the left half is the product of row `i` of the features with column `j` of `W`. -/
theorem leftHalf_apply (x : FVec Ideal S100000x512 .f32) (W T : FVec Ideal S512x64 .f32) (i : S100000x64.Idx) :
    leftHalf (Forms.denseProd x (stacked W T)) i = ∑ k : Fin 512, x (ix2 (i 0) k) * W (ix2 k (i 1)) := by
  have h1 : (i 1).val < 64 := (i 1).isLt
  have h0 : (i 0).val < 100000 := (i 0).isLt
  unfold leftHalf
  rw [extractStridedSlice_apply ![0, 0] (Forms.denseProd x (stacked W T)) slices_S100000x128_S100000x64_0_0 i
    (ix2 (⟨(i 0).val, h0⟩ : Fin 100000) (⟨(i 1).val, by omega⟩ : Fin 128)) (fun a => match a with
      | ⟨0, _⟩ => by show (i 0).val = 0 + (i 0).val; omega
      | ⟨1, _⟩ => by show (i 1).val = 0 + (i 1).val; omega)]
  unfold Forms.denseProd
  refine Finset.sum_congr rfl fun k _ => ?_
  exact congrArg (fun z => x (ix2 (⟨(i 0).val, h0⟩ : Fin 100000) k) * z) (stacked_left W T k (i 1) (by omega))

/-- Entry `(i, j)` of the right half is the product of row `i` of the features with column `j` of `T`. -/
theorem rightHalf_apply (x : FVec Ideal S100000x512 .f32) (W T : FVec Ideal S512x64 .f32) (i : S100000x64.Idx) :
    rightHalf (Forms.denseProd x (stacked W T)) i = ∑ k : Fin 512, x (ix2 (i 0) k) * T (ix2 k (i 1)) := by
  have h1 : (i 1).val < 64 := (i 1).isLt
  have h0 : (i 0).val < 100000 := (i 0).isLt
  unfold rightHalf
  rw [extractStridedSlice_apply ![0, 64] (Forms.denseProd x (stacked W T)) slices_S100000x128_S100000x64_0_64 i
    (ix2 (⟨(i 0).val, h0⟩ : Fin 100000) (⟨64 + (i 1).val, by omega⟩ : Fin 128)) (fun a => match a with
      | ⟨0, _⟩ => by show (i 0).val = 0 + (i 0).val; omega
      | ⟨1, _⟩ => by show 64 + (i 1).val = 64 + (i 1).val; rfl)]
  unfold Forms.denseProd
  refine Finset.sum_congr rfl fun k _ => ?_
  exact congrArg (fun z => x (ix2 (⟨(i 0).val, h0⟩ : Fin 100000) k) * z) (stacked_right W T k (i 1) (by omega))

/-- The bias row at column `j` is entry `j` of the bias. -/
theorem biasRow_apply (b : FVec Ideal S64 .f32) (j : Fin 64) : biasRow b (ix2 (0 : Fin 1) j) = b (ix1 j) := by
  unfold biasRow
  refine shapeCast_apply b shapeCasts_S64_S1x64 (ix2 (0 : Fin 1) j) (ix1 j) ?_
  rw [Shape.rowMajor_val_one, Shape.rowMajor_val_two]
  show j.val = 0 * 64 + j.val
  omega

end KernelSide

/-! ## The reference's side: its two products as the same sums -/

section ReferenceSide
open Cert.ReferenceIdeal Cert.ReferenceIdeal.Gen Cert.ReferenceIdeal.Read

theorem refSupport_apply (x : FVec Ideal S100000x512 .f32) (W : FVec Ideal S512x64 .f32) (i : S100000x64.Idx) :
    val_main_v0 (F := Ideal) x W i = ∑ k : Fin 512, x (ix2 (i 0) k) * W (ix2 k (i 1)) := by
  rw [val_main_v0_apply]
  refine Finset.sum_congr rfl fun k _ => ?_
  have e1 : lidx_main_v0 i k = ix2 (i 0) k := funext fun a => by
    match a with
    | ⟨0, _⟩ => rfl
    | ⟨1, _⟩ => rfl
  have e2 : ridx_main_v0 i k = ix2 k (i 1) := funext fun a => by
    match a with
    | ⟨0, _⟩ => rfl
    | ⟨1, _⟩ => rfl
  rw [e1, e2]
  rfl

theorem refLin_apply (x : FVec Ideal S100000x512 .f32) (Vw : FVec Ideal S64x512 .f32) (i : S100000x64.Idx) :
    val_main_v15 (F := Ideal) x Vw i = ∑ k : Fin 512, x (ix2 (i 0) k) * val_main_v14 (F := Ideal) Vw (ix2 k (i 1)) := by
  rw [val_main_v15_apply]
  refine Finset.sum_congr rfl fun k _ => ?_
  have e1 : lidx_main_v15 i k = ix2 (i 0) k := funext fun a => by
    match a with
    | ⟨0, _⟩ => rfl
    | ⟨1, _⟩ => rfl
  have e2 : ridx_main_v15 i k = ix2 k (i 1) := funext fun a => by
    match a with
    | ⟨0, _⟩ => rfl
    | ⟨1, _⟩ => rfl
  rw [e1, e2]
  rfl

/-- The reference's bias, broadcast to a row and then down the rows, at `(i, j)` is entry `j` of the bias. -/
theorem refBias_apply (b : FVec Ideal S64 .f32) (i : S100000x64.Idx) :
    val_main_v17 (F := Ideal) b i = b (ix1 (i 1)) := by
  rw [val_main_v17_apply, val_main_v16_apply]
  refine congrArg b (funext fun a => ?_)
  match a with
  | ⟨0, _⟩ => rfl

end ReferenceSide

/-! ## The two programs' results are one function of the arguments -/

open Cert.ReferenceIdeal.Read in
/-- The reference's first product is the left half of the kernel's dense product. -/
theorem support_eq (x : FVec Ideal Cert.KernelIdeal.S100000x512 .f32) (W : FVec Ideal Cert.KernelIdeal.S512x64 .f32)
    (Vw : FVec Ideal Cert.KernelIdeal.S64x512 .f32) :
    val_main_v0 (F := Ideal) x W = leftHalf (Cert.KernelIdeal.Forms.denseProd x (stacked W (transposed Vw))) :=
  funext fun i => (refSupport_apply x W i).trans (leftHalf_apply x W (transposed Vw) i).symm

open Cert.ReferenceIdeal.Read in
/-- The reference's second product is the right half of the kernel's dense product. -/
theorem lin_eq (x : FVec Ideal Cert.KernelIdeal.S100000x512 .f32) (W : FVec Ideal Cert.KernelIdeal.S512x64 .f32)
    (Vw : FVec Ideal Cert.KernelIdeal.S64x512 .f32) :
    val_main_v15 (F := Ideal) x Vw = rightHalf (Cert.KernelIdeal.Forms.denseProd x (stacked W (transposed Vw))) :=
  funext fun i => (refLin_apply x Vw i).trans (rightHalf_apply x W (transposed Vw) i).symm

open Cert.ReferenceIdeal.Read in
/-- The mean: the reference's aggregation of its first product is the kernel's aggregation of the left half. -/
theorem mean_eq (x : FVec Ideal Cert.KernelIdeal.S100000x512 .f32)
    (src dst : (⟨Cert.KernelIdeal.S1600000, .i32⟩ : BufTy).Contents (Elt Ideal))
    (w : FVec Ideal Cert.KernelIdeal.S1600000 .f32) (W : FVec Ideal Cert.KernelIdeal.S512x64 .f32)
    (Vw : FVec Ideal Cert.KernelIdeal.S64x512 .f32) :
    val_main_v13 (F := Ideal) x src dst w W
      = Cert.KernelIdeal.Forms.edgeSum (leftHalf (Cert.KernelIdeal.Forms.denseProd x (stacked W (transposed Vw)))) src dst w := by
  rw [← support_eq x W Vw]
  rfl

open Cert.ReferenceIdeal.Read in
/-- The standard deviation. -/
theorem std_eq (x : FVec Ideal Cert.KernelIdeal.S100000x512 .f32) (W : FVec Ideal Cert.KernelIdeal.S512x64 .f32)
    (Vw : FVec Ideal Cert.KernelIdeal.S64x512 .f32) (b : FVec Ideal Cert.KernelIdeal.S64 .f32) :
    val_main_v22 (F := Ideal) x Vw b
      = Cert.KernelIdeal.Forms.stdOf (rightHalf (Cert.KernelIdeal.Forms.denseProd x (stacked W (transposed Vw)))) (biasRow b) := by
  funext i
  rw [val_main_v22_apply, val_main_v21_apply, val_main_v19_apply, val_main_v18_apply, val_main_v20_apply,
    val_main_cst_1_apply, refBias_apply, lin_eq x W Vw]
  unfold Cert.KernelIdeal.Forms.stdOf
  exact (congrArg (fun z => Ideal.sqrt (Ideal.exp (rightHalf (Cert.KernelIdeal.Forms.denseProd x (stacked W (transposed Vw))) i + z)
    + Ideal.ofBits .f32 0x38D1B717#32)) (biasRow_apply b (i 1))).symm

open Cert.ReferenceIdeal.Read in
/-- The sample. -/
theorem latent_eq (x : FVec Ideal Cert.KernelIdeal.S100000x512 .f32)
    (src dst : (⟨Cert.KernelIdeal.S1600000, .i32⟩ : BufTy).Contents (Elt Ideal))
    (w : FVec Ideal Cert.KernelIdeal.S1600000 .f32) (nz : FVec Ideal Cert.KernelIdeal.S100000x64 .f32)
    (W : FVec Ideal Cert.KernelIdeal.S512x64 .f32) (Vw : FVec Ideal Cert.KernelIdeal.S64x512 .f32)
    (b : FVec Ideal Cert.KernelIdeal.S64 .f32) :
    val_main_v24 (F := Ideal) x src dst w nz W Vw b
      = Cert.KernelIdeal.Forms.latentOf (Cert.KernelIdeal.Forms.edgeSum (leftHalf (Cert.KernelIdeal.Forms.denseProd x (stacked W (transposed Vw)))) src dst w)
          (rightHalf (Cert.KernelIdeal.Forms.denseProd x (stacked W (transposed Vw)))) nz (biasRow b) := by
  funext i
  rw [val_main_v24_apply, val_main_v23_apply, mean_eq x src dst w W Vw, std_eq x W Vw b]
  rfl

end Cert.Bridge

end
-- ==== Proof.KernelValue.lean ====
/-
  The kernel program's three results as functions of the launch memory.

  Reading the buffers backwards through the program: the mean is the sparse aggregation of the left half of the dense
  product; the standard deviation and the sample are the elementwise region's two outputs, computed from the right
  half of the dense product, the bias row, the mean and the noise; and the dense product is region 0's output, the
  node features times the stacked weights `[W | Vᵀ]` that the first host operations build.
-/
import proofs.«144433_j88038239633789_1_alg».proof.Proof.KernelRun
import proofs.«144433_j88038239633789_1_alg».proof.Proof.MatmulRegion
import proofs.«144433_j88038239633789_1_alg».proof.Proof.SampleRegion
import proofs.«144433_j88038239633789_1_alg».proof.Proof.HostStretch
import proofs.«144433_j88038239633789_1_alg».proof.Proof.Bridge

set_option maxRecDepth 16384

noncomputable section

namespace Cert.KernelIdeal.Result

open Cert.KernelIdeal Cert.KernelIdeal.Gen Cert.Bridge
open Idealize.ShloMosaic Idealize.ShloMosaic.TcCoe Idealize.SL.Sem

variable (m : (ℓ : Loc nD τ sig) → Buf (Elt Ideal) ℓ) (ρ : Dev nD → PrngReg)

/-- The dense product as the launch memory determines it: the node features times the stacked weights. -/
def product (c : Dev nD) : FVec Ideal S100000x128 .f32 :=
  Forms.denseProd (m ((c : Thread nD τ).loc main_arg0)) (stacked (m ((c : Thread nD τ).loc main_arg5)) (transposed (m ((c : Thread nD τ).loc main_arg6))))

/-- The mean: the sparse aggregation of the left half of the dense product over the edge list. -/
def mean (c : Dev nD) : FVec Ideal S100000x64 .f32 :=
  Forms.edgeSum (leftHalf (product m c)) (m ((c : Thread nD τ).loc main_arg1)) (m ((c : Thread nD τ).loc main_arg2)) (m ((c : Thread nD τ).loc main_arg3))

/-- The standard deviation, from the right half of the dense product and the bias. -/
def std (c : Dev nD) : FVec Ideal S100000x64 .f32 :=
  Forms.stdOf (rightHalf (product m c)) (biasRow (m ((c : Thread nD τ).loc main_arg7)))

/-- The sample: the mean plus the standard deviation times the noise. -/
def latent (c : Dev nD) : FVec Ideal S100000x64 .f32 :=
  Forms.latentOf (mean m c) (rightHalf (product m c)) (m ((c : Thread nD τ).loc main_arg4)) (biasRow (m ((c : Thread nD τ).loc main_arg7)))

/-- Region 0 leaves the dense product in its output array. -/
theorem product_val (c : Dev nD) : W2 m ρ c (Proc.devRef .tc main_v2) = product m c :=
  (W2_arr m ρ c 2).trans ((Dense.dense_final (V1 m ρ) c).trans (by
    show Forms.denseProd (W1 m ρ c (Proc.devRef .tc main_arg0)) (W1 m ρ c (Proc.devRef .tc main_v1)) = _
    rw [Stretch.W1_features, Stretch.W1_weights]
    rfl))

/-- The first result buffer holds the mean: the elementwise region reads it and leaves it as it found it. -/
theorem mean_val (c : Dev nD) : W4 m ρ c (Proc.devRef .tc main_v17) = mean m c :=
  (W4_arr m ρ c 0).trans (((dat1 (V3 m ρ) c).arrAt_in 0 rfl _).trans ((A_eq1 (V3 m ρ) c 0).trans (by
    show W3 m ρ c (Proc.devRef .tc main_v17) = _
    rw [Stretch.W3_mean, product_val]
    rfl)))

/-- The second result buffer holds the standard deviation. -/
theorem std_val (c : Dev nD) : W4 m ρ c (Proc.devRef .tc main_v19_0) = std m c :=
  (W4_arr m ρ c 4).trans ((Sample.std_final (V3 m ρ) c).trans (by
    show Forms.stdOf (W3 m ρ c (Proc.devRef .tc main_v4)) (W3 m ρ c (Proc.devRef .tc main_v18)) = _
    rw [Stretch.W3_lin, Stretch.W3_bias, product_val]
    rfl))

/-- The third result buffer holds the sample. -/
theorem latent_val (c : Dev nD) : W4 m ρ c (Proc.devRef .tc main_v19_1) = latent m c :=
  (W4_arr m ρ c 5).trans ((Sample.latent_final (V3 m ρ) c).trans (by
    show Forms.latentOf (W3 m ρ c (Proc.devRef .tc main_v17)) (W3 m ρ c (Proc.devRef .tc main_v4))
      (W3 m ρ c (Proc.devRef .tc main_arg4)) (W3 m ρ c (Proc.devRef .tc main_v18)) = _
    rw [Stretch.W3_mean, Stretch.W3_lin, Stretch.W3_noise, Stretch.W3_bias, product_val]
    rfl))

/-- The kernel program's run: every weakly fair execution terminates, nothing faulting, with the three results at
    the mean, the standard deviation and the sample, and the arguments as launched. -/
theorem run : θ_run defs (onTc (τ := τ) (main (F := Ideal))) ⟨m, fun _ => 0, ρ⟩ (fun r => ∀ c : Dev nD,
      r.2.mem ((c.tc : Thread nD τ).loc main_v17) = mean m c
      ∧ r.2.mem ((c.tc : Thread nD τ).loc main_v19_0) = std m c
      ∧ r.2.mem ((c.tc : Thread nD τ).loc main_v19_1) = latent m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨(h c).1.trans (mean_val m ρ c), (h c).2.1.trans (std_val m ρ c), (h c).2.2.1.trans (latent_val m ρ c), (h c).2.2.2⟩)
    (RunVals.run_vals m ρ)

end Cert.KernelIdeal.Result

end
-- ==== Proof.lean ====
/-
  The certificate of the graph-convolution layer with a sampled latent: a kernel program of two TensorCore regions
  (one fused matrix product with the 128 stacked columns `[W | Vᵀ]`, then an elementwise region computing
  `sqrt (exp (lin + bias) + ε)` and `mean + std · noise`) against the plain reference, which multiplies by `W` and by
  `Vᵀ` separately.

  The three frames: each kernel program's frame is the launch of its segments (host stretch, region, host stretch,
  region), and the reference's is its run with the results dropped. The idealization rewrote nothing, so there is
  nothing to preserve. For the value claim both runs are stated at the same three functions of the arguments
  (`Cert.KernelIdeal.Result.mean`, `std`, `latent`): the kernel's by reading its buffers back through the two regions
  (each region's output array is one whole-array function of what it found, the blocks of 2000 rows tiling the
  array), the reference's by its run and the identities of `Cert.Bridge` — either half of the fused product is,
  entry by entry, the same sum over the 512 input features as the reference's own product, and everything after the
  products is the same composite on both sides.
-/
import proofs.«144433_j88038239633789_1_alg».proof.Defs
import proofs.«144433_j88038239633789_1_alg».proof.Proof.Gen.Kernel
import proofs.«144433_j88038239633789_1_alg».proof.Proof.Gen.Kernel.Skeleton
import proofs.«144433_j88038239633789_1_alg».proof.Proof.Gen.Kernel.Launch
import proofs.«144433_j88038239633789_1_alg».proof.Proof.Gen.Kernel.Points
import proofs.«144433_j88038239633789_1_alg».proof.Proof.Gen.Kernel.Frame
import proofs.«144433_j88038239633789_1_alg».proof.Proof.Gen.KernelIdeal
import proofs.«144433_j88038239633789_1_alg».proof.Proof.Gen.KernelIdeal.Skeleton
import proofs.«144433_j88038239633789_1_alg».proof.Proof.Gen.KernelIdeal.Launch
import proofs.«144433_j88038239633789_1_alg».proof.Proof.Gen.KernelIdeal.Points
import proofs.«144433_j88038239633789_1_alg».proof.Proof.Gen.KernelIdeal.Frame
import proofs.«144433_j88038239633789_1_alg».proof.Proof.Gen.ReferenceIdeal
import proofs.«144433_j88038239633789_1_alg».proof.Proof.Gen.ReferenceIdeal.Run
import proofs.«144433_j88038239633789_1_alg».proof.Proof.Gen.ReferenceIdeal.Read
import proofs.«144433_j88038239633789_1_alg».proof.Proof.Gen.Pre_finite_inputs
import proofs.«144433_j88038239633789_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- Both programs, from memories agreeing on the arguments, end with the mean, the standard deviation and the
    sample as the same functions of the arguments. -/
theorem algebraic : Cert.algebraic_KernelIdeal_ReferenceIdeal := by
  intro m ρ m' ρ' _ hagree
  refine ⟨Cert.KernelIdeal.Result.mean m, Cert.KernelIdeal.Result.std m, Cert.KernelIdeal.Result.latent m,
    Cert.KernelIdeal.Result.run m ρ, ?_⟩
  refine (θ_run Cert.ReferenceIdeal.defs _ _).mono (fun r h c => ?_) (Cert.ReferenceIdeal.Value.run (F := Ideal) m' ρ')
  obtain ⟨h13, h22, h24, hargs⟩ := h c
  obtain ⟨a0, a1, a2, a3, a4, a5, a6, a7⟩ := hagree c
  refine ⟨?_, ?_, ?_, hargs⟩
  · rw [h13, Cert.ReferenceIdeal.Read.val_main_v13_eq, a0, a1, a2, a3, a5]
    exact Cert.Bridge.mean_eq _ _ _ _ _ (m ((c.tc : Thread Cert.KernelIdeal.nD Cert.KernelIdeal.τ).loc Cert.KernelIdeal.main_arg6))
  · rw [h22, Cert.ReferenceIdeal.Read.val_main_v22_eq, a0, a6, a7]
    exact Cert.Bridge.std_eq _ (m ((c.tc : Thread Cert.KernelIdeal.nD Cert.KernelIdeal.τ).loc Cert.KernelIdeal.main_arg5)) _ _
  · rw [h24, Cert.ReferenceIdeal.Read.val_main_v24_eq, a0, a1, a2, a3, a4, a5, a6, a7]
    exact Cert.Bridge.latent_eq _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
